-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x4096 : Shape := ⟨2, ![4096, 4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S2x2048x4096 .f32) (main_arg1 : FVec F S4096x4096 .f32) (main_arg2 : FVec F S4096x4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S2x2048x4096 : Shape := ⟨3, ![2, 2048, 4096]⟩
abbrev S4096x4096 : Shape := ⟨2, ![4096, 4096]⟩
abbrev S1024x512 : Shape := ⟨2, ![1024, 512]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S2x2048x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v18 : BitVec 1 := Scalar.cmpi .eq arg2 c7_i32
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S2x2048x4096_S4096x4096 : S2x2048x4096.ShapeCasts S4096x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  shapeCasts_S4096x4096_S2x2048x4096 : S4096x4096.ShapeCasts S2x2048x4096
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .f32 = 32 ∨ (Rect.block (s := S4096x4096) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S4096x4096, .f32⟩
  | .hbm, ⟨3, _⟩ => ⟨S2x2048x4096, .f32⟩
  | .hbm, ⟨4, _⟩ => ⟨S2x2048x4096, .f32⟩
  | .hbm, ⟨5, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  dot_S2x2048x4096_S4096x4096_S2x2048x4096_2_1_01_0_n_n_wf : DotDims.WF S2x2048x4096 S4096x4096 S2x2048x4096 [2] [1] [0, 1] [0] [] []

variable [Facts₀]

def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.DualGemmSpec.lean ====
/-
  The mathematics of the dual matrix product, with no program in sight.

  Three square arrays of extended reals are given: `a` (rows × contraction), `u` and `l` (columns × contraction).
  The target value at (row r, column o) is

      ∑ₖ a r k · u o k  +  ∑ₖ a r k · l o k        (k over the whole contraction axis, 4096 long).

  The blocked computation cuts the contraction axis into 8 stretches of 512 and accumulates, stretch after stretch,
  the sum of the two partial products of that stretch (`term`), starting from zero (`partialSum`). Addition of extended
  reals is commutative and associative (they form an additive commutative monoid; no cancellation, no distributivity is
  used), so the accumulated value after the last stretch is the target (`partialSum_full`): the double sum over
  (stretch, position in the stretch) is the single sum over the axis (`sum_stretches`), and a sum of sums splits.

  Arrays are read at NATURAL coordinates (`at2`, `at3`: zero outside the extents), so that every sum is over a
  `Finset.range` and an index is plain arithmetic.
-/
import Idealize.ShloMosaic.Lib.ValueIdx
import Idealize.ShloMosaic.PureOps.Ideal

noncomputable section

open scoped BigOperators
open Idealize.ShloMosaic Idealize.ShloMosaic.ValueIdx

namespace DualGemm

/-- A 4096 × 4096 array read at natural coordinates: its entry inside the extents, zero outside. -/
def at2 (f : (⟨2, ![4096, 4096]⟩ : Shape).Idx → EReal) (r k : ℕ) : EReal :=
  if h : r < 4096 ∧ k < 4096 then f (ix2 ⟨r, h.1⟩ ⟨k, h.2⟩) else 0

/-- Inside the extents `at2` is the entry. -/
theorem at2_ix2 (f : (⟨2, ![4096, 4096]⟩ : Shape).Idx → EReal) (r k : Fin 4096) : at2 f r.val k.val = f (ix2 r k) := by
  unfold at2
  rw [dif_pos ⟨r.isLt, k.isLt⟩]

/-- An entry is `at2` at the index's coordinates, whatever they are called. -/
theorem eq_at2 (f : (⟨2, ![4096, 4096]⟩ : Shape).Idx → EReal) (i : (⟨2, ![4096, 4096]⟩ : Shape).Idx) (r k : ℕ)
    (h0 : (i 0).val = r) (h1 : (i 1).val = k) : f i = at2 f r k := by
  subst h0 h1
  exact ((at2_ix2 f (i 0) (i 1)).trans (congrArg f (eq_ix2 i).symm)).symm

/-- A 2 × 2048 × 4096 array read at natural coordinates: its entry inside the extents, zero outside. -/
def at3 (f : (⟨3, ![2, 2048, 4096]⟩ : Shape).Idx → EReal) (b s k : ℕ) : EReal :=
  if h : b < 2 ∧ s < 2048 ∧ k < 4096 then f (ix3 ⟨b, h.1⟩ ⟨s, h.2.1⟩ ⟨k, h.2.2⟩) else 0

theorem at3_ix3 (f : (⟨3, ![2, 2048, 4096]⟩ : Shape).Idx → EReal) (b : Fin 2) (s : Fin 2048) (k : Fin 4096) :
    at3 f b.val s.val k.val = f (ix3 b s k) := by
  unfold at3
  rw [dif_pos ⟨b.isLt, s.isLt, k.isLt⟩]

theorem eq_at3 (f : (⟨3, ![2, 2048, 4096]⟩ : Shape).Idx → EReal) (i : (⟨3, ![2, 2048, 4096]⟩ : Shape).Idx) (b s k : ℕ)
    (h0 : (i 0).val = b) (h1 : (i 1).val = s) (h2 : (i 2).val = k) : f i = at3 f b s k := by
  subst h0 h1 h2
  exact ((at3_ix3 f (i 0) (i 1) (i 2)).trans (congrArg f (eq_ix3 i).symm)).symm

variable (A U L : ℕ → ℕ → EReal)

/-- What stretch `j` of the contraction axis contributes at (r, o): its partial product with `u` plus its partial
    product with `l`. -/
def term (r o j : ℕ) : EReal :=
  ∑ k ∈ Finset.range 512, A r (512 * j + k) * U o (512 * j + k) + ∑ k ∈ Finset.range 512, A r (512 * j + k) * L o (512 * j + k)

/-- The accumulated value after stretches 0 … n. -/
def partialSum (r o n : ℕ) : EReal := ∑ j ∈ Finset.range (n + 1), term A U L r o j

/-- The target: the two whole products, added. -/
def full (r o : ℕ) : EReal :=
  ∑ k ∈ Finset.range 4096, A r k * U o k + ∑ k ∈ Finset.range 4096, A r k * L o k

/-- The first stretch, accumulated into zero. -/
theorem partialSum_zero (r o : ℕ) : 0 + term A U L r o 0 = partialSum A U L r o 0 := by
  unfold partialSum
  rw [Finset.sum_range_one, zero_add]

/-- One more stretch. -/
theorem partialSum_succ (r o n : ℕ) : partialSum A U L r o n + term A U L r o (n + 1) = partialSum A U L r o (n + 1) := by
  unfold partialSum
  rw [Finset.sum_range_succ _ (n + 1)]

/-- A sum over `n` stretches of 512 is the sum over the first `512 · n` positions. -/
theorem sum_stretches (g : ℕ → EReal) (n : ℕ) :
    ∑ j ∈ Finset.range n, ∑ k ∈ Finset.range 512, g (512 * j + k) = ∑ k ∈ Finset.range (512 * n), g k := by
  induction n with
  | zero => simp
  | succ n ih => rw [Finset.sum_range_succ, ih, Nat.mul_succ, Finset.sum_range_add]

/-- After the eighth stretch the accumulated value is the target. -/
theorem partialSum_full (r o : ℕ) : partialSum A U L r o 7 = full A U L r o := by
  unfold partialSum term full
  rw [Finset.sum_add_distrib, sum_stretches (fun k => A r k * U o k) 8, sum_stretches (fun k => A r k * L o k) 8]

/-- The result array of the whole computation, as a function of the three argument arrays: at (b, s, o) the row (b, s)
    of `x` against row o of each weight array, the two products added. -/
def target (x : (⟨3, ![2, 2048, 4096]⟩ : Shape).Idx → EReal) (wu wl : (⟨2, ![4096, 4096]⟩ : Shape).Idx → EReal) :
    (⟨3, ![2, 2048, 4096]⟩ : Shape).Idx → EReal := fun i =>
  ∑ k ∈ Finset.range 4096, at3 x (i 0).val (i 1).val k * at2 wu (i 2).val k
    + ∑ k ∈ Finset.range 4096, at3 x (i 0).val (i 1).val k * at2 wl (i 2).val k

end DualGemm

end
-- ==== Proof.BlockReads.lean ====
/-
  Where a block sits in its array.

  The grid is 4 × 4 × 8, the last axis (the contraction step) running fastest, so point number t has row block t / 32,
  column block (t / 8) mod 4 and contraction step t mod 8 (decided once over the 128 points). The left operand's block at
  the point is rows 1024·(t/32) … of the flattened input, positions 512·(t mod 8) … of the contraction axis; each weight
  block is rows 1024·((t/8) mod 4) … of its array (the weights are laid out columns × contraction), same positions.
  The flattened input is the row-major reshape of the 2 × 2048 × 4096 argument: row r is (r / 2048, r mod 2048).
-/
import proofs.«181676_j19490561589765_1_alg».proof.Proof.Gen.KernelIdeal.Frame
import proofs.«181676_j19490561589765_1_alg».proof.Proof.DualGemmSpec
import Idealize.ShloMosaic.Lib.Pipeline.Value
import Idealize.ShloMosaic.Lib.StableHlo.Run
import Idealize.ShloMosaic.Lib.ValueIdx

noncomputable section

namespace Cert.KernelIdeal.BlockReads

open Idealize.ShloMosaic Idealize.ShloMosaic.TcCoe Idealize.ShloMosaic.ValueIdx Idealize.SL.Sem
open Cert.KernelIdeal Cert.KernelIdeal.Gen DualGemm

variable (m : (ℓ : Loc nD τ sig) → Buf (Elt Ideal) ℓ)

/-- The printed index maps in closed form, over the whole grid. -/
theorem index_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 8 % 4 ∧ win0_2.index t (1 : Fin 2) = t.val % 8
    ∧ win0_3.index t (0 : Fin 2) = t.val / 32 ∧ win0_3.index t (1 : Fin 2) = t.val / 8 % 4 :=
  (by decide +kernel : ∀ t : Fin grid0.N, _)

/-- The three input blocks at a point, and the three arrays the region reads, at their literal types. -/
abbrev xblk (c : Dev nD) (t : Fin cfg0.N) : Vec Ideal S1024x512 .f32 := iblk m c 0 t
abbrev ublk (c : Dev nD) (t : Fin cfg0.N) : Vec Ideal S1024x512 .f32 := iblk m c 1 t
abbrev lblk (c : Dev nD) (t : Fin cfg0.N) : Vec Ideal S1024x512 .f32 := iblk m c 2 t
abbrev xarr (c : Dev nD) : S4096x4096.Idx → EReal := V m c main_v0
abbrev uarr (c : Dev nD) : S4096x4096.Idx → EReal := V m c main_arg1
abbrev larr (c : Dev nD) : S4096x4096.Idx → EReal := V m c main_arg2

/-- Entry (p, k) of the left block at point t. -/
theorem xblk_apply (c : Dev nD) (t : Fin cfg0.N) (p : Fin 1024) (k : Fin 512) :
    xblk m c t (ix2 p k) = at2 (xarr m c) (1024 * (t.val / 32) + p.val) (512 * (t.val % 8) + k.val) := by
  obtain ⟨e0, e1, -⟩ := index_facts t
  show iblk m c 0 t (ix2 p k) = _
  unfold iblk
  rw [View.read_apply]
  show V m c main_v0 (((cfg0.win 0).blk t).view.emb (ix2 p k)) = _
  refine eq_at2 (V m c main_v0) _ _ _ ?_ ?_
  · show win0_0.index t (0 : Fin 2) * 1024 + 1 * p.val = _
    rw [e0]; omega
  · show win0_0.index t (1 : Fin 2) * 512 + 1 * k.val = _
    rw [e1]; omega

/-- Entry (q, k) of the first weight block at point t. -/
theorem ublk_apply (c : Dev nD) (t : Fin cfg0.N) (q : Fin 1024) (k : Fin 512) :
    ublk m c t (ix2 q k) = at2 (uarr m c) (1024 * (t.val / 8 % 4) + q.val) (512 * (t.val % 8) + k.val) := by
  obtain ⟨-, -, e0, e1, -⟩ := index_facts t
  show iblk m c 1 t (ix2 q k) = _
  unfold iblk
  rw [View.read_apply]
  show V m c main_arg1 (((cfg0.win 1).blk t).view.emb (ix2 q k)) = _
  refine eq_at2 (V m c main_arg1) _ _ _ ?_ ?_
  · show win0_1.index t (0 : Fin 2) * 1024 + 1 * q.val = _
    rw [e0]; omega
  · show win0_1.index t (1 : Fin 2) * 512 + 1 * k.val = _
    rw [e1]; omega

/-- Entry (q, k) of the second weight block at point t. -/
theorem lblk_apply (c : Dev nD) (t : Fin cfg0.N) (q : Fin 1024) (k : Fin 512) :
    lblk m c t (ix2 q k) = at2 (larr m c) (1024 * (t.val / 8 % 4) + q.val) (512 * (t.val % 8) + k.val) := by
  obtain ⟨-, -, -, -, e0, e1, -⟩ := index_facts t
  show iblk m c 2 t (ix2 q k) = _
  unfold iblk
  rw [View.read_apply]
  show V m c main_arg2 (((cfg0.win 2).blk t).view.emb (ix2 q k)) = _
  refine eq_at2 (V m c main_arg2) _ _ _ ?_ ?_
  · show win0_2.index t (0 : Fin 2) * 1024 + 1 * q.val = _
    rw [e0]; omega
  · show win0_2.index t (1 : Fin 2) * 512 + 1 * k.val = _
    rw [e1]; omega

/-- The region's left array is the row-major reshape of the first argument. -/
theorem xarr_eq (c : Dev nD) :
    xarr m c = shapeCast S4096x4096 (m ((c : Thread nD τ).loc main_arg0)) shapeCasts_S2x2048x4096_S4096x4096 := by
  show StableHlo.after hostOps0 (fun b => m (c, b)) (Proc.devRef .tc main_v0) = _
  after_results
  rfl

/-- Row r of the flattened input is row (r / 2048, r mod 2048) of the argument. -/
theorem xarr_at (c : Dev nD) (r k : ℕ) (hr : r < 4096) (hk : k < 4096) :
    at2 (xarr m c) r k = at3 (m ((c : Thread nD τ).loc main_arg0)) (r / 2048) (r % 2048) k := by
  have hb : r / 2048 < 2 := by omega
  have hs : r % 2048 < 2048 := by omega
  unfold at2 at3
  rw [dif_pos ⟨hr, hk⟩, dif_pos ⟨hb, hs, hk⟩, xarr_eq]
  refine shapeCast_apply _ _ _ _ ?_
  show ((⟨3, ![2, 2048, 4096]⟩ : Shape).rowMajor (ix3 (⟨r / 2048, hb⟩ : Fin 2) (⟨r % 2048, hs⟩ : Fin 2048) (⟨k, hk⟩ : Fin 4096))).val
    = ((⟨2, ![4096, 4096]⟩ : Shape).rowMajor (ix2 (⟨r, hr⟩ : Fin 4096) (⟨k, hk⟩ : Fin 4096))).val
  rw [Shape.rowMajor_val_three, Shape.rowMajor_val_two]
  show (r / 2048 * 2048 + r % 2048) * 4096 + k = r * 4096 + k
  omega

/-- The weight arrays are the arguments themselves. -/
theorem uarr_eq (c : Dev nD) : uarr m c = m ((c : Thread nD τ).loc main_arg1) := V_main_arg1 m c
theorem larr_eq (c : Dev nD) : larr m c = m ((c : Thread nD τ).loc main_arg2) := V_main_arg2 m c

end Cert.KernelIdeal.BlockReads

end
-- ==== Proof.BodyPieces.lean ====
/-
  What the kernel body leaves behind, case by case, as VALUES.

  The body keeps a 1024 × 1024 accumulator in a scratch buffer across the eight steps of the contraction axis. At
  every step it loads its three input blocks x, u, l and overwrites the accumulator with

      accumulate x u l acc  =  acc + (x · uᵀ + x · lᵀ)            (the body's second payload),

  where `acc` is what the accumulator held: the zero block it has just stored at the first step of the axis (the body's
  first payload), or what the step before left. At the last step it copies the accumulator, as just updated, into the
  output block. So in each of the three cases of the two conditionals the accumulator ends at the accumulate payload,
  and in the last case the output block does too. Nothing here depends on the float instance.
-/
import proofs.«181676_j19490561589765_1_alg».proof.Proof.Gen.KernelIdeal.Frame
import Idealize.ShloMosaic.Lib.Pipeline.Value
import Idealize.ShloMosaic.Lib.Tactic

set_option maxRecDepth 16384

noncomputable section

namespace Cert.KernelIdeal.BodyPieces

open Idealize.ShloMosaic Idealize.ShloMosaic.TcCoe Idealize.ShloMosaic.Tactic Idealize.SL.Sem
open Cert.KernelIdeal Cert.KernelIdeal.Gen

variable {F : FTy → Type} [FloatOps F]

/-- The zero offsets of a load or store of a whole buffer, as a constant function. -/
theorem offs_zero : (![0, 0] : Fin 2 → Nat) = fun _ => 0 := funext fun a => by fin_cases a <;> rfl

/-- First step of the axis: the accumulator is zeroed, then updated from the zero block. -/
theorem acc_first (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 x1 x2 : Vec F S1024x512 .f32) :
    sout0_A_0 c i arg3 harg3 arg4 harg4 arg5 harg5 arg6 harg6 arg7 harg7 hc0 hc1 x0 x1 x2 = k0_pay2 x0 x1 x2 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) offs_zero]
  simp only [View.readAt_eq_ld, harg3.read_unread, harg4.read_unread, harg5.read_unread,
    View.ld_unit_zero (S := S1024x512) offs_zero, View.readCov_unit_zero (S := S1024x1024) _ offs_zero]

/-- A middle step: the accumulator is updated from what the step before left in it. -/
theorem acc_middle (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 x1 x2 : Vec F S1024x512 .f32) (acc : Vec F S1024x1024 .f32) :
    sout0_B_0 c i arg3 harg3 arg4 harg4 arg5 harg5 arg6 harg6 arg7 harg7 hc0 hc1 x0 x1 x2 acc = k0_pay2 x0 x1 x2 acc := by
  unfold sout0_B_0
  rw [View.read_writes_eq_canon _ _ _ (scover0_B_0 c i arg3 harg3 arg4 harg4 arg5 harg5 arg6 harg6 arg7 harg7 hc0 hc1 x0 x1 x2 acc)]
  unfold kernelRun0_B
  dsimp only
  sl_unfold_words
  rw [View.canon_unit_zero offs_zero]
  simp only [View.readAt_eq_ld, harg3.read_unread, harg4.read_unread, harg5.read_unread, harg7.read_unread,
    View.ld_unit_zero (S := S1024x512) offs_zero, View.ld_unit_zero (S := S1024x1024) offs_zero]

/-- The last step: the accumulator is updated the same way … -/
theorem acc_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 x1 x2 : Vec F S1024x512 .f32) (acc : Vec F S1024x1024 .f32) :
    sout0_C_0 c i arg3 harg3 arg4 harg4 arg5 harg5 arg6 harg6 arg7 harg7 hc0 hc1 x0 x1 x2 acc = k0_pay2 x0 x1 x2 acc := by
  unfold sout0_C_0
  rw [View.read_writes_eq_canon _ _ _ (scover0_C_0 c i arg3 harg3 arg4 harg4 arg5 harg5 arg6 harg6 arg7 harg7 hc0 hc1 x0 x1 x2 acc)]
  unfold kernelRun0_C
  dsimp only
  sl_unfold_words
  rw [View.canon_unit_zero offs_zero]
  simp only [View.readAt_eq_ld, harg3.read_unread, harg4.read_unread, harg5.read_unread, harg7.read_unread,
    View.ld_unit_zero (S := S1024x512) offs_zero, View.ld_unit_zero (S := S1024x1024) offs_zero]

/-- … and the output block receives the updated accumulator. -/
theorem out_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 x1 x2 : Vec F S1024x512 .f32) (acc : Vec F S1024x1024 .f32) :
    out0_C_3 c i arg3 harg3 arg4 harg4 arg5 harg5 arg6 harg6 arg7 harg7 hc0 hc1 x0 x1 x2 acc = k0_pay2 x0 x1 x2 acc := by
  unfold out0_C_3
  rw [View.read_writes_eq_canon _ _ _ (cover0_C_3 c i arg3 harg3 arg4 harg4 arg5 harg5 arg6 harg6 arg7 harg7 hc0 hc1 x0 x1 x2 acc)]
  unfold kernelRun0_C
  dsimp only
  sl_unfold_words
  rw [View.canon_unit_zero offs_zero]
  simp only [View.readAt_eq_ld, harg3.read_unread, harg4.read_unread, harg5.read_unread, harg7.read_unread,
    View.ld_unit_zero (S := S1024x512) offs_zero, View.ld_unit_zero (S := S1024x1024) offs_zero,
    View.readCov_unit_zero (S := S1024x1024) _ offs_zero]

end Cert.KernelIdeal.BodyPieces

end
-- ==== Proof.BodyValue.lean ====
/-
  The body's arithmetic at one entry, over the extended reals.

  At the ideal instance a change of float format is the identity and a matrix product into a zero accumulator is the plain
  sum over the contraction axis, so the accumulate payload at entry (p, q) of the 1024 × 1024 block is

      acc (p, q) + ( ∑ₖ x (p, k) · u (q, k)  +  ∑ₖ x (p, k) · l (q, k) ),        k over the 512 positions of the block,

  both weight blocks being laid out columns × contraction (the products contract the second axis of both operands).
  The zero payload is zero at every entry.
-/
import proofs.«181676_j19490561589765_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BodyValue

open Idealize.ShloMosaic Idealize.ShloMosaic.ValueIdx
open Cert.KernelIdeal Cert.KernelIdeal.Gen

/-! ### The operand indices of the block product, axis by axis -/

theorem lhs_row (j : S1024x1024.Idx) (q : dot_S1024x512_S1024x512_S1024x1024_1_1_0_0_n_n.contr.Idx) :
    (dot_S1024x512_S1024x512_S1024x1024_1_1_0_0_n_n.lhsIdx j q 0).val = (j 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_contr (j : S1024x1024.Idx) (q : dot_S1024x512_S1024x512_S1024x1024_1_1_0_0_n_n.contr.Idx) :
    (dot_S1024x512_S1024x512_S1024x1024_1_1_0_0_n_n.lhsIdx j q 1).val = (q ⟨0, by decide⟩).val :=
  dot_S1024x512_S1024x512_S1024x1024_1_1_0_0_n_n.lhsIdx_val_of_single rfl j q
theorem rhs_row (j : S1024x1024.Idx) (q : dot_S1024x512_S1024x512_S1024x1024_1_1_0_0_n_n.contr.Idx) :
    (dot_S1024x512_S1024x512_S1024x1024_1_1_0_0_n_n.rhsIdx j q 0).val = (j 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_contr (j : S1024x1024.Idx) (q : dot_S1024x512_S1024x512_S1024x1024_1_1_0_0_n_n.contr.Idx) :
    (dot_S1024x512_S1024x512_S1024x1024_1_1_0_0_n_n.rhsIdx j q 1).val = (q ⟨0, by decide⟩).val :=
  dot_S1024x512_S1024x512_S1024x1024_1_1_0_0_n_n.rhsIdx_val_of_single rfl j q

/-- The block product into zeros at (p, q): row p of the left block against row q of the right block. -/
theorem product_apply {φ₁ φ₂ : FTy} (a : FVec Ideal S1024x512 φ₁) (b : FVec Ideal S1024x512 φ₂) (p q : Fin 1024) :
    matmul dot_S1024x512_S1024x512_S1024x1024_1_1_0_0_n_n none a b (constant (F := Ideal) S1024x1024 .f32 0x00000000#32) (ix2 p q)
      = ∑ k : Fin 512, a (ix2 p k) * b (ix2 q k) := by
  simp only [matmul]
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun a => Fin.ext (by
    match a with
    | ⟨0, _⟩ => exact lhs_row _ _
    | ⟨1, _⟩ => exact (lhs_contr _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun a => Fin.ext (by
    match a with
    | ⟨0, _⟩ => exact rhs_row _ _
    | ⟨1, _⟩ => exact (rhs_contr _ _).trans hk)
  rw [el, er]

/-- The zero payload at an entry. -/
theorem zero_apply (j : S1024x1024.Idx) : k0_pay1 (F := Ideal) j = 0 := by
  unfold k0_pay1
  simp only [shapeCast_self]
  exact Ideal.ofBits_zero_f32

/-- The accumulate payload at entry (p, q). -/
theorem accumulate_apply (x u l : Vec Ideal S1024x512 .f32) (acc : Vec Ideal S1024x1024 .f32) (p q : Fin 1024) :
    k0_pay2 (F := Ideal) x u l acc (ix2 p q)
      = acc (ix2 p q) + (∑ k : Fin 512, x (ix2 p k) * u (ix2 q k) + ∑ k : Fin 512, x (ix2 p k) * l (ix2 q k)) := by
  unfold k0_pay2
  simp only [shapeCast_self, addf_apply]
  rw [product_apply, product_apply]
  rfl

end Cert.KernelIdeal.BodyValue

end
-- ==== Proof.Accumulation.lean ====
/-
  The accumulator along the contraction axis.

  Point t works on output block (t / 32, (t / 8) mod 4) at contraction step t mod 8. By induction on the point, after
  point t the accumulator holds, at entry (p, q) of the block, the partial sum of the specification over steps
  0 … t mod 8, for row 1024·(t/32) + p of the flattened input and row 1024·((t/8) mod 4) + q of the weights: the first
  step of each run of eight starts from the zero block, every later step adds its term to what the step before left
  (the block coordinates do not change inside a run). At the last step of a run the output block receives the
  accumulator, which by then is the whole contraction.
-/
import proofs.«181676_j19490561589765_1_alg».proof.Proof.Gen.KernelIdeal.Frame
import proofs.«181676_j19490561589765_1_alg».proof.Proof.DualGemmSpec
import proofs.«181676_j19490561589765_1_alg».proof.Proof.BodyPieces
import proofs.«181676_j19490561589765_1_alg».proof.Proof.BodyValue
import proofs.«181676_j19490561589765_1_alg».proof.Proof.BlockReads

noncomputable section

namespace Cert.KernelIdeal.Accumulation

open Idealize.ShloMosaic Idealize.ShloMosaic.TcCoe Idealize.ShloMosaic.ValueIdx Idealize.SL.Sem
open Cert.KernelIdeal Cert.KernelIdeal.Gen DualGemm
open Cert.KernelIdeal.BodyPieces Cert.KernelIdeal.BodyValue Cert.KernelIdeal.BlockReads

/-- One step of the body at entry (p, q), when its three blocks are stretch `j` of rows `r` and `o` of three arrays
    read at natural coordinates: the accumulator plus the stretch's term. -/
theorem step_value (x u l : Vec Ideal S1024x512 .f32) (acc : Vec Ideal S1024x1024 .f32) (A U L : ℕ → ℕ → EReal)
    (r o j : ℕ) (p q : Fin 1024)
    (hx : ∀ k : Fin 512, x (ix2 p k) = A r (512 * j + k.val))
    (hu : ∀ k : Fin 512, u (ix2 q k) = U o (512 * j + k.val))
    (hl : ∀ k : Fin 512, l (ix2 q k) = L o (512 * j + k.val)) :
    k0_pay2 (F := Ideal) x u l acc (ix2 p q) = acc (ix2 p q) + term A U L r o j := by
  rw [accumulate_apply]
  unfold term
  rw [← Fin.sum_univ_eq_sum_range (fun k => A r (512 * j + k) * U o (512 * j + k)) 512,
    ← Fin.sum_univ_eq_sum_range (fun k => A r (512 * j + k) * L o (512 * j + k)) 512]
  simp only [hx, hu, hl]

variable (m : (ℓ : Loc nD τ sig) → Buf (Elt Ideal) ℓ)

/-- The three arrays the region reads, at natural coordinates. -/
abbrev A (c : Dev nD) : ℕ → ℕ → EReal := at2 (xarr m c)
abbrev U (c : Dev nD) : ℕ → ℕ → EReal := at2 (uarr m c)
abbrev L (c : Dev nD) : ℕ → ℕ → EReal := at2 (larr m c)

/-- The accumulator after a point that starts a run of eight. -/
theorem first_step (c : Dev nD) (t : Fin cfg0.N) (h0 : t.val % 8 = 0) (h1 : ¬t.val % 8 = 7) (p q : Fin 1024) :
    (outsAt0 m c t.val t.isLt).2 (ix2 p q)
      = partialSum (A m c) (U m c) (L m c) (1024 * (t.val / 32) + p.val) (1024 * (t.val / 8 % 4) + q.val) (t.val % 8) := by
  rw [outsAt0_A m c t h0 h1]
  dsimp only
  refine (congrFun (acc_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)) (ix2 p q)).trans ?_
  refine (step_value (xblk m c t) (ublk m c t) (lblk m c t) (k0_pay1 (F := Ideal)) (A m c) (U m c) (L m c)
    (1024 * (t.val / 32) + p.val) (1024 * (t.val / 8 % 4) + q.val) (t.val % 8) p q
    (xblk_apply m c t p) (ublk_apply m c t q) (lblk_apply m c t q)).trans ?_
  rw [zero_apply, h0]
  exact partialSum_zero _ _ _ _ _

/-- The accumulator after a later point of a run, from what it held after the point before. -/
theorem later_step (c : Dev nD) (t : Fin cfg0.N) (h0 : ¬t.val % 8 = 0) (p q : Fin 1024)
    (ih : (outsAt0 m c (t.val - 1) (Nat.lt_of_le_of_lt (Nat.sub_le _ _) t.isLt)).2 (ix2 p q)
      = partialSum (A m c) (U m c) (L m c) (1024 * ((t.val - 1) / 32) + p.val) (1024 * ((t.val - 1) / 8 % 4) + q.val) ((t.val - 1) % 8)) :
    (outsAt0 m c t.val t.isLt).2 (ix2 p q)
      = partialSum (A m c) (U m c) (L m c) (1024 * (t.val / 32) + p.val) (1024 * (t.val / 8 % 4) + q.val) (t.val % 8) := by
  have e1 : (t.val - 1) / 32 = t.val / 32 := by omega
  have e2 : (t.val - 1) / 8 % 4 = t.val / 8 % 4 := by omega
  have e3 : t.val % 8 = (t.val - 1) % 8 + 1 := by omega
  rw [e1, e2] at ih
  by_cases h1 : t.val % 8 = 7
  · rw [outsAt0_C m c t h0 h1]
    dsimp only
    refine (congrFun (acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2) (ix2 p q)).trans ?_
    refine (step_value (xblk m c t) (ublk m c t) (lblk m c t) (outsAt0 m c (t.val - 1) (Nat.lt_of_le_of_lt (Nat.sub_le _ _) t.isLt)).2
      (A m c) (U m c) (L m c)
      (1024 * (t.val / 32) + p.val) (1024 * (t.val / 8 % 4) + q.val) (t.val % 8) p q
      (xblk_apply m c t p) (ublk_apply m c t q) (lblk_apply m c t q)).trans ?_
    rw [ih, e3]
    exact partialSum_succ _ _ _ _ _ _
  · rw [outsAt0_B m c t h0 h1]
    dsimp only
    refine (congrFun (acc_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
      (iblk m c 0 t) (iblk m c 1 t) (iblk m c 2 t) (outsAt0 m c (t.val - 1) (Nat.lt_of_le_of_lt (Nat.sub_le _ _) t.isLt)).2) (ix2 p q)).trans ?_
    refine (step_value (xblk m c t) (ublk m c t) (lblk m c t) (outsAt0 m c (t.val - 1) (Nat.lt_of_le_of_lt (Nat.sub_le _ _) t.isLt)).2
      (A m c) (U m c) (L m c)
      (1024 * (t.val / 32) + p.val) (1024 * (t.val / 8 % 4) + q.val) (t.val % 8) p q
      (xblk_apply m c t p) (ublk_apply m c t q) (lblk_apply m c t q)).trans ?_
    rw [ih, e3]
    exact partialSum_succ _ _ _ _ _ _

/-- THE INVARIANT: after point n the accumulator is the partial sum over the steps done so far in its run. -/
theorem acc_after (c : Dev nD) : ∀ (n : ℕ) (h : n < cfg0.N) (p q : Fin 1024),
    (outsAt0 m c n h).2 (ix2 p q)
      = partialSum (A m c) (U m c) (L m c) (1024 * (n / 32) + p.val) (1024 * (n / 8 % 4) + q.val) (n % 8) := by
  intro n
  induction n with
  | zero =>
    intro h p q
    exact first_step m c ⟨0, h⟩ rfl (by show ¬(0 % 8 = 7); decide) p q
  | succ n ih =>
    intro h p q
    by_cases h0 : (n + 1) % 8 = 0
    · exact first_step m c ⟨n + 1, h⟩ h0 (by show ¬((n + 1) % 8 = 7); omega) p q
    · exact later_step m c ⟨n + 1, h⟩ h0 p q (ih (Nat.lt_of_succ_lt h) p q)

/-- At the last step of a run the output block holds the whole contraction. -/
theorem out_at_last (c : Dev nD) (t : Fin cfg0.N) (h7 : t.val % 8 = 7) (p q : Fin 1024) :
    (outsAt0 m c t.val t.isLt).1 (ix2 p q)
      = full (A m c) (U m c) (L m c) (1024 * (t.val / 32) + p.val) (1024 * (t.val / 8 % 4) + q.val) := by
  have h0 : ¬t.val % 8 = 0 := by omega
  have e : (outsAt0 m c t.val t.isLt).1 = (outsAt0 m c t.val t.isLt).2 := by
    rw [outsAt0_C m c t h0 h7]
    dsimp only
    exact (out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7)
      (iblk m c 0 t) (iblk m c 1 t) (iblk m c 2 t) (outsAt0 m c (t.val - 1) (Nat.lt_of_le_of_lt (Nat.sub_le _ _) t.isLt)).2).trans
      (acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7)
      (iblk m c 0 t) (iblk m c 1 t) (iblk m c 2 t) (outsAt0 m c (t.val - 1) (Nat.lt_of_le_of_lt (Nat.sub_le _ _) t.isLt)).2).symm
  rw [e, acc_after m c t.val t.isLt p q, h7]
  exact partialSum_full _ _ _ _ _

end Cert.KernelIdeal.Accumulation

end
-- ==== Proof.KernelResult.lean ====
/-
  What the kernel program leaves in its result.

  The region's output array (4096 × 4096) is written back once per output block, at the last contraction step of the
  block's run, with the accumulator of that moment: the whole contraction for every entry of the block (the previous
  module). The sixteen blocks tile the array, so after the region the array holds, at (r, o), the specification's full
  value for row r of the flattened input and row o of the weights. The program then reshapes that array row-major to
  2 × 2048 × 4096; entry (b, s, o) is the array's entry (2048·b + s, o), and row 2048·b + s of the flattened input is
  row (b, s) of the first argument. So the result is the specification's target of the three arguments.
-/
import proofs.«181676_j19490561589765_1_alg».proof.Proof.Gen.KernelIdeal.Frame
import proofs.«181676_j19490561589765_1_alg».proof.Proof.DualGemmSpec
import proofs.«181676_j19490561589765_1_alg».proof.Proof.BlockReads
import proofs.«181676_j19490561589765_1_alg».proof.Proof.Accumulation
import Idealize.ShloMosaic.Lib.Pipeline.Value
import Idealize.ShloMosaic.Lib.StableHlo.Run

noncomputable section

namespace Cert.KernelIdeal.Result

open Idealize.ShloMosaic Idealize.ShloMosaic.TcCoe Idealize.ShloMosaic.ValueIdx Idealize.SL.Sem
open Idealize.ShloMosaic.Pipeline (Dat)
open Cert.KernelIdeal Cert.KernelIdeal.Gen DualGemm
open Cert.KernelIdeal.BlockReads Cert.KernelIdeal.Accumulation

variable (m : (ℓ : Loc nD τ sig) → Buf (Elt Ideal) ℓ) (ρ : Dev nD → PrngReg)

/-- The array the region writes: the whole contraction at every entry. -/
def outArr (c : Dev nD) : S4096x4096.Idx → EReal :=
  fun i => full (A m c) (U m c) (L m c) (i 0).val (i 1).val

/-- What a writing point writes back is its block of that array. -/
theorem flushed_eq (c : Dev nD) (t : Fin cfg0.N) (hf : (cfg0.win 3).flush t = true) :
    (dats m 0 c).flushed 3 t = ((cfg0.win 3).blk t).view.read (Elt Ideal) (outArr m c) := by
  have h7 : t.val % 8 = 7 := (flush0_3 t).mp hf
  obtain ⟨-, -, -, -, -, -, e0, e1⟩ := index_facts t
  show (cfg0.win 3).cut (grid0.coords t) ((dats m 0 c).after 3 t) = _
  rw [after0_3]
  funext j
  obtain ⟨p, q, rfl⟩ : ∃ (p q : Fin 1024), j = ix2 p q := ⟨j 0, j 1, eq_ix2 j⟩
  rw [View.read_apply]
  show (outsAt0 m c t.val t.isLt).1 (ix2 p q) = outArr m c (((cfg0.win 3).blk t).view.emb (ix2 p q))
  have r0 : ((((cfg0.win 3).blk t).view.emb (ix2 p q)) 0).val = 1024 * (t.val / 32) + p.val := by
    show win0_3.index t (0 : Fin 2) * 1024 + 1 * p.val = _
    rw [e0]; omega
  have r1 : ((((cfg0.win 3).blk t).view.emb (ix2 p q)) 1).val = 1024 * (t.val / 8 % 4) + q.val := by
    show win0_3.index t (1 : Fin 2) * 1024 + 1 * q.val = _
    rw [e1]; omega
  rw [out_at_last m c t h7 p q]
  unfold outArr
  rw [r0, r1]

/-- An entry is in a point's block iff each coordinate is in the block's range. -/
theorem mem_blk (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v1).slice (win0_3.rect t)).set ↔ _
  rw [View.set_slice_whole, Rect.mem_set_unit]
  exact Iff.rfl

/-- Every entry lies in the block of the writing point of its row block and column block. -/
theorem cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 128 := N_0
  obtain ⟨t, ht⟩ : ∃ t : Fin cfg0.N, t.val = 32 * ((i 0).val / 1024) + 8 * ((i 1).val / 1024) + 7 :=
    ⟨⟨32 * ((i 0).val / 1024) + 8 * ((i 1).val / 1024) + 7, by rw [hN]; omega⟩, rfl⟩
  obtain ⟨-, -, -, -, -, -, e0, e1⟩ := index_facts t
  refine ⟨t, (flush0_3 t).mpr (by omega), ?_⟩
  rw [mem_blk]
  intro a
  match a with
  | ⟨0, _⟩ =>
    show win0_3.index t (0 : Fin 2) * 1024 ≤ (i 0).val ∧ (i 0).val < win0_3.index t (0 : Fin 2) * 1024 + 1024
    rw [e0]; omega
  | ⟨1, _⟩ =>
    show win0_3.index t (1 : Fin 2) * 1024 ≤ (i 1).val ∧ (i 1).val < win0_3.index t (1 : Fin 2) * 1024 + 1024
    rw [e1]; omega

/-- So the region's output array ends holding the whole contraction everywhere. -/
theorem final (c : Dev nD) : (dats m 0 c).arrAt 3 cfg0.N = outArr m c :=
  (dats m 0 c).arrAt_eq_of_cover 3 (outArr m c) (flushed_eq m c) (cover)

/-- The program's result: that array, reshaped row-major. -/
def result (c : Dev nD) : Buf (Elt Ideal) ((c : Thread nD τ).loc main_v2) :=
  shapeCast S2x2048x4096 (outArr m c) shapeCasts_S4096x4096_S2x2048x4096

/-- The reshape after the region reads the region's output array. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = outArr m c :=
    (Pipeline.withArrays_arr spec0 launch0.win.arr_inj c _ _ 3).trans (final m c)
  exact congrArg (fun (a : S4096x4096.Idx → EReal) =>
    (shapeCast S2x2048x4096 a shapeCasts_S4096x4096_S2x2048x4096 : S2x2048x4096.Idx → EReal)) hw

/-- THE RUN: every weakly fair execution of the program terminates with the result buffer at `result` and the three
    arguments as launched. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

/-- The result is the specification's target of the three arguments as launched. -/
theorem result_eq_target (c : Dev nD) :
    result m c = target (m ((c : Thread nD τ).loc main_arg0)) (m ((c : Thread nD τ).loc main_arg1)) (m ((c : Thread nD τ).loc main_arg2)) := by
  funext i
  obtain ⟨b, s, o, rfl⟩ : ∃ (b : Fin 2) (s : Fin 2048) (o : Fin 4096), i = ix3 b s o := ⟨i 0, i 1, i 2, eq_ix3 i⟩
  have hb : b.val < 2 := b.isLt
  have hs : s.val < 2048 := s.isLt
  have hr : 2048 * b.val + s.val < 4096 := by omega
  unfold result
  refine (shapeCast_apply _ _ _ (ix2 (⟨2048 * b.val + s.val, hr⟩ : Fin 4096) o) ?_).trans ?_
  · show ((⟨2, ![4096, 4096]⟩ : Shape).rowMajor (ix2 (⟨2048 * b.val + s.val, hr⟩ : Fin 4096) o)).val
      = ((⟨3, ![2, 2048, 4096]⟩ : Shape).rowMajor (ix3 b s o)).val
    rw [Shape.rowMajor_val_two, Shape.rowMajor_val_three]
    show (2048 * b.val + s.val) * 4096 + o.val = (b.val * 2048 + s.val) * 4096 + o.val
    omega
  · show full (A m c) (U m c) (L m c) (2048 * b.val + s.val) o.val = _
    unfold full target
    congr 1 <;> refine Finset.sum_congr rfl fun k hk => ?_
    · have hk' : k < 4096 := Finset.mem_range.mp hk
      show at2 (xarr m c) (2048 * b.val + s.val) k * at2 (uarr m c) o.val k = at3 _ b.val s.val k * at2 _ o.val k
      rw [xarr_at m c _ k hr hk', uarr_eq]
      congr 2 <;> omega
    · have hk' : k < 4096 := Finset.mem_range.mp hk
      show at2 (xarr m c) (2048 * b.val + s.val) k * at2 (larr m c) o.val k = at3 _ b.val s.val k * at2 _ o.val k
      rw [xarr_at m c _ k hr hk', larr_eq]
      congr 2 <;> omega

end Cert.KernelIdeal.Result

end
-- ==== Proof.ReferenceResult.lean ====
/-
  The reference computes the target.

  The reference is two contractions of the 2 × 2048 × 4096 input with a 4096 × 4096 weight array along the last axis of
  both, added entry by entry. Read at (b, s, o), each contraction is the sum over k of x (b, s, k) times the weight's
  (o, k): with the arrays read at natural coordinates that is, term for term, the specification's target.
-/
import proofs.«181676_j19490561589765_1_alg».proof.Proof.Gen.ReferenceIdeal.Read
import proofs.«181676_j19490561589765_1_alg».proof.Proof.DualGemmSpec

noncomputable section

namespace Cert.ReferenceIdeal.RefValue

open Idealize.ShloMosaic Idealize.ShloMosaic.ValueIdx
open Cert.ReferenceIdeal Cert.ReferenceIdeal.Gen Cert.ReferenceIdeal.Read DualGemm

/-- The reference's result, as a function of its three arguments, is the target. -/
theorem reference_eq_target (x : S2x2048x4096.Idx → EReal) (wu wl : S4096x4096.Idx → EReal) :
    val_main_v2 (F := Ideal) x wu wl = target x wu wl := by
  funext i
  rw [val_main_v2_apply, val_main_v0_apply, val_main_v1_apply]
  unfold target
  show (∑ k : Fin 4096, x (lidx_main_v0 i k) * wu (ridx_main_v0 i k)) + (∑ k : Fin 4096, x (lidx_main_v1 i k) * wl (ridx_main_v1 i k)) = _
  rw [← Fin.sum_univ_eq_sum_range (fun k => at3 x (i 0).val (i 1).val k * at2 wu (i 2).val k) 4096,
    ← Fin.sum_univ_eq_sum_range (fun k => at3 x (i 0).val (i 1).val k * at2 wl (i 2).val k) 4096]
  congr 1 <;> refine Finset.sum_congr rfl fun k _ => ?_
  · rw [eq_at3 x (lidx_main_v0 i k) (i 0).val (i 1).val k.val rfl rfl rfl, eq_at2 wu (ridx_main_v0 i k) (i 2).val k.val rfl rfl]
  · rw [eq_at3 x (lidx_main_v1 i k) (i 0).val (i 1).val k.val rfl rfl rfl, eq_at2 wl (ridx_main_v1 i k) (i 2).val k.val rfl rfl]

end Cert.ReferenceIdeal.RefValue

end
-- ==== Proof.lean ====
/-
  The dual matrix product  y = x · Wuᵀ + x · Wlᵀ,  blocked against whole.

  The kernel flattens x (2 × 2048 × 4096) to 4096 rows, and for each 1024 × 1024 block of the output walks the
  contraction axis in eight stretches of 512: it zeroes an accumulator at the first stretch, adds to it at every stretch
  the sum of the two partial products of that stretch (the operands narrowed to a shorter float format first, which over
  the extended reals is the identity), and writes the accumulator out after the last. The reference contracts the whole
  axis at once, once per weight array, and adds the two results.

  Over the extended reals both are the same function of the three arguments (`DualGemm.target`): at (b, s, o)

      ∑ₖ x (b, s, k) · Wu (o, k)  +  ∑ₖ x (b, s, k) · Wl (o, k).

  The kernel side is the accumulator's invariant along the contraction axis and the fact that the sum over
  (stretch, position) is the sum over the axis; only commutativity and associativity of addition are used, so the
  finiteness of the inputs is never opened. The ideal pass rewrote nothing, so the idealization claim is trivial; the
  two kernel programs' frames are the generated ones, and the reference's frame is its generated run with the result
  dropped.
-/
import proofs.«181676_j19490561589765_1_alg».proof.Defs
import proofs.«181676_j19490561589765_1_alg».proof.Proof.Gen.Kernel
import proofs.«181676_j19490561589765_1_alg».proof.Proof.Gen.Kernel.Frame
import proofs.«181676_j19490561589765_1_alg».proof.Proof.Gen.KernelIdeal
import proofs.«181676_j19490561589765_1_alg».proof.Proof.Gen.KernelIdeal.Frame
import proofs.«181676_j19490561589765_1_alg».proof.Proof.Gen.ReferenceIdeal
import proofs.«181676_j19490561589765_1_alg».proof.Proof.Gen.ReferenceIdeal.Read
import proofs.«181676_j19490561589765_1_alg».proof.Proof.Gen.Pre_finite_inputs
import proofs.«181676_j19490561589765_1_alg».proof.Proof.KernelResult
import proofs.«181676_j19490561589765_1_alg».proof.Proof.ReferenceResult
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the target of their (agreeing) arguments in the result buffer. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.reference_eq_target,
    (hagree c).1, (hagree c).2.1, (hagree c).2.2]
  exact (Cert.KernelIdeal.Result.result_eq_target m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
